-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S8192x4096 : Shape := ⟨2, ![8192, 4096]⟩
abbrev S4096 : Shape := ⟨1, ![4096]⟩
abbrev S1x4096 : Shape := ⟨2, ![1, 4096]⟩
abbrev S512x4096 : Shape := ⟨2, ![512, 4096]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S8192x4096.size a
  hwx0_2 : ∀ i : grid0.Coords, EltTy.bits .f32 = 32 ∨ (Rect.block (s := S8192x4096) S512x4096.size (cc0_transform_2 i) (hinb0_2 i)).WholeWords (EltTy.packing .f32)

variable [Facts₀]

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096 : Shape := ⟨1, ![4096]⟩
abbrev S1x4096 : Shape := ⟨2, ![1, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .f32⟩
  | .hbm, ⟨4, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)

variable [Facts₀]

class Facts : Prop extends Facts₀ where

variable [Facts]
-- ==== Proof.RowScale.lean ====
/-
  Scaling the columns of a matrix. For a matrix `x` of 8192 rows and 4096 columns and a vector `k` of 4096
  scales, the result has entry (b, j) equal to `x[b, j] · k[j]`: the product of `x` with the diagonal matrix of
  `k`, written without the matrix. Nothing here depends on what a float is: the one arithmetic operation is a
  single product per entry, taken in the same order (matrix entry first, scale second) by both programs, so no
  law of arithmetic is used and no entry needs to be finite.

  Two readings of "the vector laid along every row" meet this function:
  * a vector broadcast to one row and that row broadcast down all rows, read at (b, j), is the vector at j;
  * a one-row matrix broadcast down the 512 rows of a block, read at (r, j), is the row at (0, j).
-/
import Idealize.ShloMosaic.Lib.Pipeline.Value
import Idealize.ShloMosaic.Lib.ValueIdx

noncomputable section

namespace Cert.RowScale

open Idealize.ShloMosaic Idealize.ShloMosaic.ValueIdx

variable {F : FTy → Type} [FloatOps F]

/-- The shapes of the matrix, of the vector of scales, of the scales as one row, and of a block of 512 rows. -/
abbrev Mat : Shape := ⟨2, ![8192, 4096]⟩
abbrev Scales : Shape := ⟨1, ![4096]⟩
abbrev Row : Shape := ⟨2, ![1, 4096]⟩
abbrev Blk : Shape := ⟨2, ![512, 4096]⟩

/-- The column of a matrix entry, as an index into the vector of scales. -/
abbrev col (i : Mat.Idx) : Scales.Idx := ix1 (i 1 : Fin 4096)

/-- `x` with column `j` multiplied by `k j`: entry (b, j) is `x[b, j] · k[j]`. -/
def scaled (x : FVec F Mat .f32) (k : FVec F Scales .f32) : FVec F Mat .f32 :=
  fun i => FloatOps.mulf (x i) (k (col i))

theorem scaled_apply (x : FVec F Mat .f32) (k : FVec F Scales .f32) (i : Mat.Idx) :
    scaled x k i = FloatOps.mulf (x i) (k (col i)) := rfl

/-- The scales as one row (the vector re-laid with a leading axis of extent one), read at (0, j), are the vector
    at j: both sit at row-major position j. -/
theorem row_apply {α : Type} (k : Scales.Idx → α) (h : Scales.ShapeCasts Row) (j : Fin 4096) :
    shapeCast Row k h (ix2 (0 : Fin 1) j) = k (ix1 j) :=
  shapeCast_apply k h (ix2 (0 : Fin 1) j) (ix1 j) (by
    rw [Shape.rowMajor_val_two, Shape.rowMajor_val_one]; show j.val = 0 * 4096 + j.val; omega)

/-- A one-row matrix re-laid onto its own shape and broadcast down the 512 rows of a block, read at (r, j), is
    the row at (0, j). -/
theorem rows_apply {α : Type} (y : Row.Idx → α) (hs : Row.ShapeCasts Row) (hb : Row.Broadcasts Blk) (i : Blk.Idx) :
    broadcastTo Blk (shapeCast Row y hs) hb i = y (ix2 (0 : Fin 1) (i 1 : Fin 4096)) := by
  rw [shapeCast_self]
  refine broadcastTo_apply y hb i (ix2 (0 : Fin 1) (i 1 : Fin 4096)) ?_
  intro a
  match a with
  | ⟨0, _⟩ => rfl
  | ⟨1, _⟩ => show (i 1).val = if (4096 : Nat) = 1 then 0 else (i 1).val; rw [if_neg (by decide)]

end Cert.RowScale

end
-- ==== Proof.KernelSide.lean ====
/-
  The kernel's result array is the column-scaled matrix. The grid has 16 points; point t works on rows
  512·t … 512·t + 511 of the matrix, all 4096 columns, and every point sees the same one-row array of scales
  (the vector re-laid by the host with a leading axis of extent one). The body multiplies its block of the matrix,
  entry by entry, by that row repeated down the block's 512 rows, and writes the product back as block t of the
  result. So entry (r, j) of block t is `x[512·t + r, j] · k[j]`, which is entry (512·t + r, j) of the column-scaled
  matrix; and since the 16 blocks tile the 8192 rows, the whole result array is that matrix.
-/
import proofs.«427142_j24386824306957_3_alg».proof.Proof.Gen.KernelIdeal.Value
import proofs.«427142_j24386824306957_3_alg».proof.Proof.RowScale
import Idealize.ShloMosaic.Lib.StableHlo.Run

noncomputable section

namespace Cert.KernelIdeal.ScaleValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable {F : FTy → Type} [FloatOps F]
variable (m : (ℓ : Loc nD τ sig) → Buf (Elt F) ℓ) (ρ : Dev nD → PrngReg)

/-- The body's loads and its store all start at the block's corner. -/
theorem corner : (![0, 0] : Fin 2 → Nat) = fun _ => 0 := funext fun a => by fin_cases a <;> rfl

/-! ## One block -/

/-- What the body leaves in the output block, from its block `x0` of the matrix and the row `x1` of scales: entry
    (r, j) is `x0[r, j] · x1[0, j]`. -/
theorem block_apply (x0 : Vec F S512x4096 .f32) (x1 : Vec F S1x4096 .f32) (y : S512x4096.Idx) :
    out0_2 x0 x1 y = FloatOps.mulf (x0 y) (x1 (ix2 (0 : Fin 1) (y 1 : Fin 4096))) := by
  unfold out0_2
  rw [View.canon_unit_zero corner, View.ld_unit_zero (S := S512x4096) corner, View.ld_unit_zero (S := S1x4096) corner]
  show FloatOps.mulf (x0 y) (broadcastTo S512x4096 (shapeCast S1x4096 x1 shapeCasts_S1x4096_S1x4096) broadcasts_S1x4096_S512x4096 y) = _
  rw [Cert.RowScale.rows_apply]

/-- The same with the two operands named by what they hold: if the block's entry at `y` is the matrix `X` at `i`, and
    the row's entry in `y`'s column is the scale of `i`'s column, the output block's entry at `y` is the column-scaled
    matrix at `i`. -/
theorem block_entry (X : FVec F S8192x4096 .f32) (k : FVec F S4096 .f32)
    (x0 : Vec F S512x4096 .f32) (x1 : Vec F S1x4096 .f32) (y : S512x4096.Idx) (i : S8192x4096.Idx)
    (h0 : x0 y = X i) (h1 : x1 (ix2 (0 : Fin 1) (y 1 : Fin 4096)) = k (Cert.RowScale.col i)) :
    out0_2 x0 x1 y = Cert.RowScale.scaled X k i := by
  rw [block_apply, h0, h1, Cert.RowScale.scaled_apply]

/-- The vector of scales re-laid as one row, read at an index `r` of the row that sits in row 0 and in the column
    of the matrix entry `i`, is the scale of `i`'s column. -/
theorem scale_at (k : FVec F S4096 .f32) (r : S1x4096.Idx) (i : S8192x4096.Idx)
    (h0 : (r 0).val = 0) (h1 : (r 1).val = (i 1).val) :
    shapeCast S1x4096 k shapeCasts_S4096_S1x4096 r = k (Cert.RowScale.col i) := by
  refine shapeCast_apply k shapeCasts_S4096_S1x4096 r (Cert.RowScale.col i) ?_
  rw [Shape.rowMajor_val_one, Shape.rowMajor_val_two]
  show (i 1).val = (r 0).val * 4096 + (r 1).val
  omega

/-! ## The arrays as the region finds them -/

/-- The one-row array of scales the region stages is the host's re-laying of the vector of scales. -/
theorem row_eq (c : Dev nD) :
    (V m c main_v0 : S1x4096.Idx → Elt F .f32)
      = shapeCast S1x4096 (m ((c : Thread nD τ).loc main_arg1)) shapeCasts_S4096_S1x4096 := by
  dsimp only [V, hostOps0]; after_results; rfl

/-- Where each window's block sits at point `t`, decided over the 16 points: the matrix's block and the result's are
    both block row `t`, block column 0; the row of scales is always its one block. -/
theorem index_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-! ## Block t of the result -/

/-- What point `t` writes back is block `t` of the column-scaled matrix of the two argument arrays. -/
theorem flushed_eq (c : Dev nD) (t : Fin cfg0.N) :
    (dats m 0 c).flushed 2 t = ((cfg0.win 2).blk t).view.read (Elt F)
      (Cert.RowScale.scaled (V m c main_arg0) (m ((c : Thread nD τ).loc main_arg1))) := by
  rw [Value.flushed2]
  obtain ⟨e0, e1, e2, e3, e4, e5⟩ := index_facts t
  funext j
  show out0_2 (iblk m c 0 t) (iblk m c 1 t) j
    = Cert.RowScale.scaled (V m c main_arg0) (m ((c : Thread nD τ).loc main_arg1)) (((cfg0.win 2).blk t).view.emb j)
  have hj0 : (j 0).val < 512 := (j 0).isLt
  have hj1 : (j 1).val < 4096 := (j 1).isLt
  refine block_entry (V m c main_arg0) (m ((c : Thread nD τ).loc main_arg1)) (iblk m c 0 t) (iblk m c 1 t) j
    (((cfg0.win 2).blk t).view.emb j) ?_ ?_
  · -- the matrix's block and the result's block are the same rows and columns
    show V m c main_arg0 (((cfg0.win 0).blk t).view.emb j) = V m c main_arg0 (((cfg0.win 2).blk t).view.emb j)
    refine congrArg (V m c main_arg0) (funext fun a => Fin.ext ?_)
    match a with
    | ⟨0, _⟩ => show win0_0.index t (0 : Fin 2) * 512 + 1 * (j 0).val = win0_2.index t (0 : Fin 2) * 512 + 1 * (j 0).val; omega
    | ⟨1, _⟩ => show win0_0.index t (1 : Fin 2) * 4096 + 1 * (j 1).val = win0_2.index t (1 : Fin 2) * 4096 + 1 * (j 1).val; omega
  · -- the row's entry in column j is the scale of column j
    show V m c main_v0 (((cfg0.win 1).blk t).view.emb (ix2 (0 : Fin 1) (j 1 : Fin 4096)))
      = m ((c : Thread nD τ).loc main_arg1) (Cert.RowScale.col (((cfg0.win 2).blk t).view.emb j))
    rw [row_eq m c]
    refine scale_at (m ((c : Thread nD τ).loc main_arg1)) _ _ ?_ ?_
    · show win0_1.index t (0 : Fin 2) * 1 + 1 * 0 = 0
      omega
    · show win0_1.index t (1 : Fin 2) * 4096 + 1 * (j 1).val = win0_2.index t (1 : Fin 2) * 4096 + 1 * (j 1).val
      omega

/-! ## The whole result -/

/-- An index of the result is in point `t`'s block iff each coordinate is in the block's range on its axis. -/
theorem mem_block (t : Fin cfg0.N) (i : S8192x4096.Idx) :
    i ∈ ((cfg0.win 2).blk t).view.set ↔ ∀ a : Fin 2, win0_2.index t a * S512x4096.size a ≤ (i a).val ∧ (i a).val < win0_2.index t a * S512x4096.size a + S512x4096.size a := by
  show i ∈ ((View.whole main_v1).slice (win0_2.rect t)).set ↔ _
  rw [View.set_slice_whole, Rect.mem_set_unit]
  exact Iff.rfl

/-- Every entry of the result lies in some point's block: row b is in the block of point b / 512. -/
theorem cover (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  let t : Fin cfg0.N := ⟨(i 0).val / 512, by rw [show cfg0.N = 16 from N_0]; omega⟩
  obtain ⟨e0, e1, e2, e3, e4, e5⟩ := index_facts t
  have ht : t.val = (i 0).val / 512 := rfl
  refine ⟨t, flush0_2 t, ?_⟩
  rw [mem_block]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 4096 ≤ (i 1).val ∧ (i 1).val < win0_2.index t (1 : Fin 2) * 4096 + 4096; omega

/-- The result array after the run is the column-scaled matrix of the argument arrays as launched. -/
theorem final (c : Dev nD) :
    (dats m 0 c).arrAt 2 cfg0.N
      = Cert.RowScale.scaled (m ((c : Thread nD τ).loc main_arg0)) (m ((c : Thread nD τ).loc main_arg1)) := by
  rw [← V_main_arg0 m c]
  exact (dats m 0 c).arrAt_eq_of_cover 2 _ (fun t _ => flushed_eq m c t) cover

/-- Every weakly fair execution of the kernel's program terminates with the result array at the column-scaled
    matrix of the arguments and the arguments unchanged. -/
theorem run : θ_run defs (onTc (τ := τ) (main (F := F))) ⟨m, fun _ => 0, ρ⟩ fun r => ∀ c : Dev nD,
      r.2.mem ((c : Thread nD τ).loc main_v1)
        = Cert.RowScale.scaled (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ScaleValue

end
-- ==== Proof.RefSide.lean ====
/-
  The reference's result is the column-scaled matrix. It lays the vector of scales out as one row, repeats that
  row down all 8192 rows, and multiplies the matrix by the result entry by entry. Read at (b, j), the repeated
  row is the row at (0, j), which is the vector at j; so the product's entry (b, j) is `x[b, j] · k[j]`.
-/
import proofs.«427142_j24386824306957_3_alg».proof.Proof.Gen.ReferenceIdeal.Read
import proofs.«427142_j24386824306957_3_alg».proof.Proof.RowScale

noncomputable section

namespace Cert.ReferenceIdeal.ScaleValue

open Cert.ReferenceIdeal Cert.ReferenceIdeal.Gen Idealize.ShloMosaic Idealize.ShloMosaic.ValueIdx

variable {F : FTy → Type} [FloatOps F]

/-- Through the two broadcasts, entry (b, j) of the repeated row comes from entry j of the vector of scales. -/
theorem source_eq (i : S8192x4096.Idx) : Read.idx_main_v0 (Read.idx_main_v1 i) = Cert.RowScale.col i := by
  funext a
  match a with
  | ⟨0, _⟩ => rfl

/-- The term the reference's run ends at is the column-scaled matrix of its two arguments. -/
theorem result_eq (x : FVec F S8192x4096 .f32) (k : FVec F S4096 .f32) :
    mulf x (broadcastInDim S8192x4096 ![0, 1] bcast_S1x4096_S8192x4096_0_1 (broadcastInDim S1x4096 ![1] bcast_S4096_S1x4096_1 k))
      = Cert.RowScale.scaled x k := by
  rw [Read.val_main_v2_eq]
  funext i
  rw [Read.val_main_v2_apply, Read.val_main_v1_apply, Read.val_main_v0_apply, source_eq, Cert.RowScale.scaled_apply]

end Cert.ReferenceIdeal.ScaleValue

end
-- ==== Proof.lean ====
/-
  The kernel multiplies a matrix of 8192 rows and 4096 columns, column by column, by a vector of 4096 scales:
  entry (b, j) of its result is `x[b, j] · k[j]` (the product with the diagonal matrix of `k`, without the matrix).
  It does so 512 rows at a time over a grid of 16 points, each point multiplying its block of the matrix entry by
  entry by the one row of scales repeated down the block. The reference repeats the vector down all 8192 rows and
  multiplies once. Both results are the same function of the arguments, entry by entry: one product per entry,
  with the same two factors in the same order (Proof/RowScale.lean states it; Proof/KernelSide.lean and
  Proof/RefSide.lean show each program ends at it). No law of arithmetic joins the two sides, so the precondition
  (every input finite) is never opened. The idealized kernel is the kernel's own text read over the extended reals:
  the pass rewrote nothing, and what it preserves is trivially true.
-/
import proofs.«427142_j24386824306957_3_alg».proof.Defs
import proofs.«427142_j24386824306957_3_alg».proof.Proof.Gen.Kernel
import proofs.«427142_j24386824306957_3_alg».proof.Proof.Gen.Kernel.Skeleton
import proofs.«427142_j24386824306957_3_alg».proof.Proof.Gen.Kernel.Launch
import proofs.«427142_j24386824306957_3_alg».proof.Proof.Gen.Kernel.Points
import proofs.«427142_j24386824306957_3_alg».proof.Proof.Gen.Kernel.Frame
import proofs.«427142_j24386824306957_3_alg».proof.Proof.Gen.KernelIdeal
import proofs.«427142_j24386824306957_3_alg».proof.Proof.Gen.KernelIdeal.Skeleton
import proofs.«427142_j24386824306957_3_alg».proof.Proof.Gen.KernelIdeal.Launch
import proofs.«427142_j24386824306957_3_alg».proof.Proof.Gen.KernelIdeal.Points
import proofs.«427142_j24386824306957_3_alg».proof.Proof.Gen.KernelIdeal.Frame
import proofs.«427142_j24386824306957_3_alg».proof.Proof.Gen.ReferenceIdeal
import proofs.«427142_j24386824306957_3_alg».proof.Proof.Gen.ReferenceIdeal.Run
import proofs.«427142_j24386824306957_3_alg».proof.Proof.Gen.Pre_finite_inputs
import proofs.«427142_j24386824306957_3_alg».proof.Proof.KernelSide
import proofs.«427142_j24386824306957_3_alg».proof.Proof.RefSide
import Idealize.ShloMosaic.Adequacy
import Idealize.ShloMosaic.Init

noncomputable section

namespace Cert.Proof

open Idealize.ShloMosaic Idealize.ShloMosaic.TcCoe Idealize.SL.Sem

/-- The kernel as printed runs to the end, faults nowhere, and leaves its two arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference has no kernel: it runs its three host operations and ends; its arguments are not written. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The pass that idealizes the kernel rewrote no operation: there is nothing to preserve. -/
theorem preserves : Cert.preserves_Kernel_KernelIdeal := trivial

/-- From memories that agree on the matrix and on the scales, the kernel ends with its result at the
    column-scaled matrix of its arguments, and the reference with its result at the column-scaled matrix of its own:
    the same array. -/
theorem algebraic : Cert.algebraic_KernelIdeal_ReferenceIdeal := by
  intro m ρ m' ρ' _ hagree
  refine ⟨_, Cert.KernelIdeal.ScaleValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.ScaleValue.result_eq _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
